-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x64 : Shape := ⟨2, ![640000, 64]⟩
abbrev S320x128 : Shape := ⟨2, ![320, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v32 : IVec S_ 1) (main_c_12 : IVec S_ 32) : IVec S_ 1 :=
  let main_v33 : IVec S2x640000 32 := broadcastInDim S2x640000 ![] bcast_S_S2x640000 main_c_12
  let main_v34 : IVec S2x640000 1 := cmpi .slt main_arg1 main_v33
  let main_c_13 : IVec S_ 1 := constantI S_ 1 1#1
  let main_v35 : IVec S_ 1 := (fun x v => Host.reduce IntOp.andi x v reducesTo_S2x640000_S_d0_1 h_S_) main_v34 main_c_13
  let main_v36 : IVec S_ 1 := andi main_v32 main_v35
  main_v36

def fn_part1 {F : FTy → Type} [FloatOps F] (main_arg1 : IVec S2x640000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg1 main_v29
  let main_c_11 : IVec S_ 1 := constantI S_ 1 1#1
  let main_v31 : IVec S_ 1 := (fun x v => Host.reduce IntOp.andi x v reducesTo_S2x640000_S_d0_1 h_S_) main_v30 main_c_11
  let main_v32 : IVec S_ 1 := andi main_v28 main_v31
  let main_c_12 : IVec S_ 32 := constantI S_ 32 10000#32
  fn_part2 (F := F) main_arg1 main_v32 main_c_12

def fn {F : FTy → Type} [FloatOps F] (main_arg0 : FVec F S10000x128 .f32) (main_arg1 : IVec S2x640000 32) (main_arg2 : FVec F S640000x64 .f32) (main_arg3 : FVec F S320x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S10000x128 : Shape := ⟨2, ![10000, 128]⟩
abbrev S2x640000 : Shape := ⟨2, ![2, 640000]⟩
abbrev S640000x64 : Shape := ⟨2, ![640000, 64]⟩
abbrev S320x128 : Shape := ⟨2, ![320, 128]⟩
abbrev S128 : Shape := ⟨1, ![128]⟩
abbrev S128x128 : Shape := ⟨2, ![128, 128]⟩
abbrev S_ : Shape := ⟨0, ![]⟩
abbrev S10112x128 : Shape := ⟨2, ![10112, 128]⟩
abbrev S1x640000 : Shape := ⟨2, ![1, 640000]⟩
abbrev S640000 : Shape := ⟨1, ![640000]⟩
abbrev S1x128 : Shape := ⟨2, ![1, 128]⟩
abbrev S640000x128 : Shape := ⟨2, ![640000, 128]⟩
abbrev S1x256 : Shape := ⟨2, ![1, 256]⟩
abbrev S256x64 : Shape := ⟨2, ![256, 64]⟩
abbrev S256x128 : Shape := ⟨2, ![256, 128]⟩
abbrev S10112x256 : Shape := ⟨2, ![10112, 256]⟩
abbrev S256x320 : Shape := ⟨2, ![256, 320]⟩

abbrev nBuf : Space → Nat
  | .hbm => 22
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x128, .bf16⟩
  | .hbm, ⟨8, _⟩ => ⟨S_, .i32⟩
  | .hbm, ⟨9, _⟩ => ⟨S_, .bf16⟩
  | .hbm, ⟨10, _⟩ => ⟨S10112x128, .bf16⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S320x128, .bf16⟩
  | .hbm, ⟨18, _⟩ => ⟨S128x128, .bf16⟩
  | .hbm, ⟨19, _⟩ => ⟨S1x128, .f32⟩
  | .hbm, ⟨20, _⟩ => ⟨S1x128, .f32⟩
  | .hbm, ⟨21, _⟩ => ⟨S640000x128, .f32⟩
  | .local _ .vmem, ⟨0, _⟩ => ⟨S1x256, .i32⟩
  | .local _ .vmem, ⟨1, _⟩ => ⟨S1x256, .i32⟩
  | .local _ .vmem, ⟨2, _⟩ => ⟨S1x256, .i32⟩
  | .local _ .vmem, ⟨3, _⟩ => ⟨S1x256, .i32⟩
  | .local _ .vmem, ⟨4, _⟩ => ⟨S256x64, .f32⟩
  | .local _ .vmem, ⟨5, _⟩ => ⟨S256x64, .f32⟩
  | .local _ .vmem, ⟨6, _⟩ => ⟨S10112x128, .bf16⟩
  | .local _ .vmem, ⟨7, _⟩ => ⟨S320x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S256x128, .f32⟩
  | .local _ .vmem, ⟨12, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10112x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  pads_S10000x128_S10112x128_01120_000 : S10000x128.Pads (![0, 0] : Fin 2 → Nat) ![112, 0] ![0, 0] S10112x128
  h_S_ : 0 < S_.numel
  slices_S2x640000_S1x640000_0_0 : S2x640000.Slices ![0, 0] S1x640000
  shapeCasts_S1x640000_S640000 : S1x640000.ShapeCasts S640000
  shapeCasts_S640000_S1x640000 : S640000.ShapeCasts S1x640000
  slices_S2x640000_S1x640000_1_0 : S2x640000.Slices ![1, 0] S1x640000
  shapeCasts_S128_S1x128 : S128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S10112x256_d0_w32 : S10112x256.Iotas .tc 32 [0]
  broadcasts_S1x256_S10112x256 : S1x256.Broadcasts S10112x256
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S256x64_S256x64_0_0 : ∀ a, (![0, 0] : Fin 2 → Nat) a + S256x64.size a ≤ S256x64.size a
  h_S256x64 : 0 < S256x64.numel
  concatenates_S256x128_S256x128_S256x64_S256x320_d1 : Shape.Concatenates [S256x128, S256x128, S256x64] S256x320 1
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  dot_S10112x256_S10112x128_S256x128_0_0_1_1_n_n_wf : DotDims.WF S10112x256 S10112x128 S256x128 [0] [0] [1] [1] [] []
  dot_S256x320_S320x128_S256x128_1_0_0_1_n_n_wf : DotDims.WF S256x320 S320x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x640000.size a
  hwx0_0 : ∀ i : grid0.Coords, EltTy.bits .i32 = 32 ∨ (Rect.block (s := S1x640000) S1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x640000.size a
  hwx0_1 : ∀ i : grid0.Coords, EltTy.bits .i32 = 32 ∨ (Rect.block (s := S1x640000) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S640000x64.size a
  hwx0_2 : ∀ i : grid0.Coords, EltTy.bits .f32 = 32 ∨ (Rect.block (s := S640000x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10112x128.size a ≤ S10112x128.size a
  hwx0_3 : ∀ i : grid0.Coords, EltTy.bits .bf16 = 32 ∨ (Rect.block (s := S10112x128) S10112x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x128.size a ≤ S320x128.size a
  hwx0_4 : ∀ i : grid0.Coords, EltTy.bits .bf16 = 32 ∨ (Rect.block (s := S320x128) S320x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S640000x128.size a
  hwx0_8 : ∀ i : grid0.Coords, EltTy.bits .f32 = 32 ∨ (Rect.block (s := S640000x128) S256x128.size (cc0_transform_8 i) (hinb0_8 i)).WholeWords (EltTy.packing .f32)

variable [Facts₀]

def dot_S10112x256_S10112x128_S256x128_0_0_1_1_n_n : DotDims S10112x256 S10112x128 S256x128 where
  lhsContracting := [0]
  rhsContracting := [0]
  lhsNonContracting := [1]
  rhsNonContracting := [1]
  lhsBatch := []
  rhsBatch := []
  wf := dot_S10112x256_S10112x128_S256x128_0_0_1_1_n_n_wf
def dot_S256x320_S320x128_S256x128_1_0_0_1_n_n : DotDims S256x320 S320x128 S256x128 where
  lhsContracting := [1]
  rhsContracting := [0]
  lhsNonContracting := [0]
  rhsNonContracting := [1]
  lhsBatch := []
  rhsBatch := []
  wf := dot_S256x320_S320x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v4) S1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10112x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S320x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x64 : Shape := ⟨2, ![640000, 64]⟩
abbrev S320x128 : Shape := ⟨2, ![320, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x320 : Shape := ⟨2, ![640000, 320]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x320, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S640000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x64_S640000x320_d1 : Shape.Concatenates [S640000x128, S640000x128, S640000x64] S640000x320 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S10000x128_S640000x1_S640000x128_1_0_n_n_0_1_1128_wf : GatherDims.WF S10000x128 S640000x1 S640000x128 [1] [0] [] [0] [] 1 ![1, 128]
  dot_S640000x320_S320x128_S640000x128_1_0_0_1_n_n_wf : DotDims.WF S640000x320 S320x128 S640000x128 [1] [0] [0] [1] [] []
  dot_S640000x128_S128x128_S640000x128_1_0_0_1_n_n_wf : DotDims.WF S640000x128 S128x128 S640000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x320_S320x128_S640000x128_1_0_0_1_n_n : DotDims S640000x320 S320x128 S640000x128 where
  lhsContracting := [1]
  rhsContracting := [0]
  lhsNonContracting := [0]
  rhsNonContracting := [1]
  lhsBatch := []
  rhsBatch := []
  wf := dot_S640000x320_S320x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.IndexRange.lean ====
/-
  What the precondition says of the edge-index array: every one of its 2 × 640000 words, read signed, lies in
  `[0, 10000)`, so its unsigned value is below 10000 — the number of nodes.

  The printed predicate is a conjunction of whole-array "all" reductions; its last two are `all (edge_index ≥ 0)` and
  `all (edge_index < 10000)`. A conjunction that is 1 has both sides 1, an "all" that is 1 has every element 1, and a
  word that compares signed as `0 ≤ w < 10000` has unsigned value below 10000.
-/
import proofs.«419917_j49512382988573_1_alg».proof.Pre_finite_inputs
import Idealize.ShloMosaic.Lib.ReduceAll
import Idealize.ShloMosaic.Lib.ValueIdx
import Idealize.ShloMosaic.Lib.StableHlo.Predicate

noncomputable section

namespace EdgeMlp

open Idealize.ShloMosaic Idealize.ShloMosaic.ValueIdx

/-- A word that is at least 0 and below 10000 as a SIGNED integer has unsigned value below 10000. -/
theorem toNat_lt_of_signed_range (w : BitVec 32) (h0 : IntOp.cmpi .sge w 0#32 = 1#1)
    (h1 : IntOp.cmpi .slt w 10000#32 = 1#1) : w.toNat < 10000 := by
  have a : ((0#32 : BitVec 32).sle w) = true := (StableHlo.Predicate.ofBool_eq_one_iff _).1 h0
  have b : (w.slt 10000#32) = true := (StableHlo.Predicate.ofBool_eq_one_iff _).1 h1
  simp only [BitVec.sle, decide_eq_true_eq] at a
  simp only [BitVec.slt, decide_eq_true_eq] at b
  have z : (0#32 : BitVec 32).toInt = 0 := by decide
  have t : (10000#32 : BitVec 32).toInt = 10000 := by decide
  rw [z] at a; rw [t] at b
  have hw := w.isLt
  rw [BitVec.toInt_eq_toNat_cond] at a b
  split at a <;> omega

instance : Subsingleton (Cert.Pre_finite_inputs.S_).Idx := ⟨fun a b => funext fun d => d.elim0⟩

/-- THE PRECONDITION, DECODED: where the printed predicate is all ones, every edge-index word is a node number. -/
theorem index_lt_of_pre [Cert.Pre_finite_inputs.Facts] {F : FTy → Type} [FloatOps F]
    (a0 : FVec F Cert.Pre_finite_inputs.S10000x128 .f32) (a1 : IVec Cert.Pre_finite_inputs.S2x640000 32)
    (a2 : FVec F Cert.Pre_finite_inputs.S640000x64 .f32) (a3 : FVec F Cert.Pre_finite_inputs.S320x128 .f32)
    (a4 : FVec F Cert.Pre_finite_inputs.S128 .f32) (a5 : FVec F Cert.Pre_finite_inputs.S128x128 .f32)
    (a6 : FVec F Cert.Pre_finite_inputs.S128 .f32)
    (h : Cert.Pre_finite_inputs.fn (F := F) a0 a1 a2 a3 a4 a5 a6 = fun _ => 1#1)
    (i : Cert.Pre_finite_inputs.S2x640000.Idx) : (a1 i).toNat < 10000 := by
  have e := congrFun h ix0
  simp only [Cert.Pre_finite_inputs.fn, Cert.Pre_finite_inputs.fn_part1, Cert.Pre_finite_inputs.fn_part2] at e
  have e' : IntOp.andi _ _ = 1#1 := e
  obtain ⟨h32, hlt⟩ := IntOp.andi_eq_one.1 e'
  have h32' : IntOp.andi _ _ = 1#1 := h32
  obtain ⟨-, hge⟩ := IntOp.andi_eq_one.1 h32'
  have hlt' := Host.reduce_andi_all _ _ _ _ _ hlt i
  have hge' := Host.reduce_andi_all _ _ _ _ _ hge i
  exact toNat_lt_of_signed_range (a1 i) hge' hlt'

end EdgeMlp

end
-- ==== Proof.EdgeSpec.lean ====
/-
  The edge network as ONE function of its seven arrays, over the extended reals.

  For edge `e` with end nodes `s = edge_index[0, e]` and `t = edge_index[1, e]`, the input row is the 320 numbers
  `x[s, ·] ‖ x[t, ·] ‖ edge_attr[e, ·]`; the hidden row is `max (row · W1 + b1) 0`; the result row is
  `hidden · W2 + b2`. A node word is read by its unsigned value, capped at the last node so that the function is
  total; for a word in `[0, 10000)` the cap does nothing.

  Also here: a sum against an indicator of one position is the term at that position — the law by which a gather
  written as a product with a 0/1 matrix is the gather.
-/
import Idealize.ShloMosaic.PureOps.Ideal
import Idealize.ShloMosaic.Lib.ValueIdx

noncomputable section

open scoped BigOperators

namespace EdgeMlp

open Idealize.ShloMosaic Idealize.ShloMosaic.ValueIdx

/-- The node a 32-bit word names: its unsigned value, capped at node 9999. -/
def node (w : BitVec 32) : Fin 10000 := ⟨min w.toNat 9999, by omega⟩

theorem node_val_of_lt {w : BitVec 32} (h : w.toNat < 10000) : (node w).val = w.toNat := by
  show min w.toNat 9999 = w.toNat
  omega

/-- Entry `k` of a row of 320 numbers laid end to end from rows of 128, 128 and 64. -/
def pick {α : Type} (f g : Fin 128 → α) (h : Fin 64 → α) (k : Fin 320) : α :=
  if h1 : k.val < 128 then f ⟨k.val, h1⟩
  else if h2 : k.val < 256 then g ⟨k.val - 128, by omega⟩
  else h ⟨k.val - 256, by have := k.isLt; omega⟩

/-- Entry `k` of edge `e`'s input row: the source node's features, then the target node's, then the edge's own. -/
def cat (x : FVec Ideal ⟨2, ![10000, 128]⟩ .f32) (ei : IVec ⟨2, ![2, 640000]⟩ 32) (ea : FVec Ideal ⟨2, ![640000, 64]⟩ .f32)
    (e : Fin 640000) (k : Fin 320) : EReal :=
  pick (fun d => x (ix2 (node (ei (ix2 (0 : Fin 2) e))) d)) (fun d => x (ix2 (node (ei (ix2 (1 : Fin 2) e))) d))
    (fun d => ea (ix2 e d)) k

/-- Entry `j` of edge `e`'s hidden row: the first layer, then the maximum with zero. -/
def hid (x : FVec Ideal ⟨2, ![10000, 128]⟩ .f32) (ei : IVec ⟨2, ![2, 640000]⟩ 32) (ea : FVec Ideal ⟨2, ![640000, 64]⟩ .f32)
    (W1 : FVec Ideal ⟨2, ![320, 128]⟩ .f32) (b1 : FVec Ideal ⟨1, ![128]⟩ .f32) (e : Fin 640000) (j : Fin 128) : EReal :=
  max ((∑ k : Fin 320, cat x ei ea e k * W1 (ix2 k j)) + b1 (ix1 j)) 0

/-- The result array: the second layer of the hidden row. -/
def out (x : FVec Ideal ⟨2, ![10000, 128]⟩ .f32) (ei : IVec ⟨2, ![2, 640000]⟩ 32) (ea : FVec Ideal ⟨2, ![640000, 64]⟩ .f32)
    (W1 : FVec Ideal ⟨2, ![320, 128]⟩ .f32) (b1 : FVec Ideal ⟨1, ![128]⟩ .f32) (W2 : FVec Ideal ⟨2, ![128, 128]⟩ .f32)
    (b2 : FVec Ideal ⟨1, ![128]⟩ .f32) : FVec Ideal ⟨2, ![640000, 128]⟩ .f32 :=
  fun i => (∑ j : Fin 128, hid x ei ea W1 b1 (i 0) j * W2 (ix2 j (i 1))) + b2 (ix1 (i 1))

/-- The 0/1 weight a comparison bit becomes when widened to a word and read as a signed integer. -/
def bitWeight (b : BitVec 1) : EReal := (((b.setWidth 32).toInt : ℝ) : EReal)

theorem bitWeight_one : bitWeight 1#1 = 1 := by
  show (((((1#1 : BitVec 1).setWidth 32).toInt : ℝ)) : EReal) = 1
  have : ((1#1 : BitVec 1).setWidth 32).toInt = 1 := by decide
  rw [this]; simp

theorem bitWeight_zero : bitWeight 0#1 = 0 := by
  show (((((0#1 : BitVec 1).setWidth 32).toInt : ℝ)) : EReal) = 0
  have : ((0#1 : BitVec 1).setWidth 32).toInt = 0 := by decide
  rw [this]; simp

/-- Position `n` (below 2³²) as a word equals `w` exactly when `n` is `w`'s unsigned value. -/
theorem cmp_pos (n : Nat) (hn : n < 2 ^ 32) (w : BitVec 32) :
    IntOp.cmpi .eq (BitVec.ofNat 32 n) w = if n = w.toNat then 1#1 else 0#1 := by
  unfold IntOp.cmpi
  by_cases h : n = w.toNat
  · rw [if_pos h]
    have : BitVec.ofNat 32 n = w :=
      BitVec.eq_of_toNat_eq (by rw [BitVec.toNat_ofNat, Nat.mod_eq_of_lt hn]; exact h)
    rw [this, beq_self_eq_true]; rfl
  · rw [if_neg h]
    have : ¬ BitVec.ofNat 32 n = w := fun e => h (by
      have := congrArg BitVec.toNat e
      rw [BitVec.toNat_ofNat, Nat.mod_eq_of_lt hn] at this
      exact this)
    rw [beq_eq_false_iff_ne.mpr this]; rfl

/-- A SUM AGAINST THE INDICATOR OF ONE POSITION: over `N` positions, the weights being the comparison of each position
    with the word `w`, the weighted sum of `f` is `f` at `w`'s position, when that position is among them. -/
theorem sum_indicator {N : Nat} (hN : N ≤ 2 ^ 32) (w : BitVec 32) (hw : w.toNat < N) (f : Fin N → EReal) :
    ∑ n : Fin N, bitWeight (IntOp.cmpi .eq (BitVec.ofNat 32 n.val) w) * f n = f ⟨w.toNat, hw⟩ := by
  rw [Finset.sum_eq_single (⟨w.toNat, hw⟩ : Fin N)]
  · rw [cmp_pos _ (by have := hw; omega) w, if_pos rfl, bitWeight_one, one_mul]
  · intro n _ hne
    have : ¬ n.val = w.toNat := fun e => hne (Fin.ext e)
    rw [cmp_pos _ (by have := n.isLt; omega) w, if_neg this, bitWeight_zero, zero_mul]
  · intro h; exact absurd (Finset.mem_univ _) h

end EdgeMlp

end
-- ==== Proof.LibConcatRows.lean ====
/-
  A general lemma: three arrays of `R` rows and 128, 128 and 64 columns joined along the column axis, read at row
  `r` and column `k` of the 320, give the first array's entry for `k < 128`, the second's at `k - 128` for
  `k < 256`, the third's at `k - 256` otherwise — whatever the number of rows and the element type.
-/
import proofs.«419917_j49512382988573_1_alg».proof.Proof.EdgeSpec
import Idealize.ShloMosaic.Lib.Pipeline.Value

noncomputable section

namespace EdgeMlp

open Idealize.ShloMosaic Idealize.ShloMosaic.ValueIdx

/-- A row concatenation of widths 128, 128, 64 read at `(r, k)`: the piece `k` falls in, at `k` less the widths
    before it. -/
theorem concat3_apply {α : Type} {R : Nat} (A B : (⟨2, ![R, 128]⟩ : Shape).Idx → α) (C : (⟨2, ![R, 64]⟩ : Shape).Idx → α)
    (h : Shape.Concatenates [(⟨2, ![R, 128]⟩ : Shape), ⟨2, ![R, 128]⟩, ⟨2, ![R, 64]⟩] ⟨2, ![R, 320]⟩ 1)
    (r : Fin R) (k : Fin 320) :
    concatenate (⟨2, ![R, 320]⟩ : Shape) 1 [⟨⟨2, ![R, 128]⟩, A⟩, ⟨⟨2, ![R, 128]⟩, B⟩, ⟨⟨2, ![R, 64]⟩, C⟩] h (ix2 r k)
      = pick (fun d => A (ix2 r d)) (fun d => B (ix2 r d)) (fun d => C (ix2 r d)) k := by
  unfold pick
  by_cases h1 : k.val < 128
  · rw [dif_pos h1]
    exact concatenate_apply_piece (t := ⟨2, ![R, 320]⟩) (1 : Fin 2) [⟨⟨2, ![R, 128]⟩, A⟩, ⟨⟨2, ![R, 128]⟩, B⟩, ⟨⟨2, ![R, 64]⟩, C⟩] h (ix2 r k) 0 (by show 0 < 3; omega) ⟨2, ![R, 128]⟩ A rfl rfl 0 rfl
      (ix2 r ⟨k.val, h1⟩) (fun b hb => by match b with | ⟨0, _⟩ => rfl | ⟨1, _⟩ => exact absurd rfl hb)
      (by show 0 + k.val = k.val; omega)
  · rw [dif_neg h1]
    by_cases h2 : k.val < 256
    · rw [dif_pos h2]
      exact concatenate_apply_piece (t := ⟨2, ![R, 320]⟩) (1 : Fin 2) [⟨⟨2, ![R, 128]⟩, A⟩, ⟨⟨2, ![R, 128]⟩, B⟩, ⟨⟨2, ![R, 64]⟩, C⟩] h (ix2 r k) 1 (by show 1 < 3; omega) ⟨2, ![R, 128]⟩ B rfl rfl 128 rfl
        (ix2 r ⟨k.val - 128, by omega⟩) (fun b hb => by match b with | ⟨0, _⟩ => rfl | ⟨1, _⟩ => exact absurd rfl hb)
        (by show 128 + (k.val - 128) = k.val; omega)
    · rw [dif_neg h2]
      exact concatenate_apply_piece (t := ⟨2, ![R, 320]⟩) (1 : Fin 2) [⟨⟨2, ![R, 128]⟩, A⟩, ⟨⟨2, ![R, 128]⟩, B⟩, ⟨⟨2, ![R, 64]⟩, C⟩] h (ix2 r k) 2 (by show 2 < 3; omega) ⟨2, ![R, 64]⟩ C rfl rfl 256 rfl
        (ix2 r ⟨k.val - 256, by have := k.isLt; omega⟩)
        (fun b hb => by match b with | ⟨0, _⟩ => rfl | ⟨1, _⟩ => exact absurd rfl hb)
        (by show 256 + (k.val - 256) = k.val; omega)

end EdgeMlp

end
-- ==== Proof.KernelBody.lean ====
/-
  The kernel body's arithmetic, read at one entry of its 256 × 128 output block, over the extended reals.

  The body forms, for each of the block's 256 edges, a 0/1 column over the 10112 padded node rows (a position compared
  with the edge's node word), multiplies the padded node table by it — a sum against the indicator of one row, so the
  row itself —, lays the two gathered rows and the edge's own 64 numbers end to end, and applies the two layers:
  a 320-term sum plus a bias, the maximum with zero, a 128-term sum plus a bias. A change of float format is the
  identity here, and a product into a zero accumulator is the plain sum.
-/
import proofs.«419917_j49512382988573_1_alg».proof.Proof.Gen.KernelIdeal.Skeleton
import proofs.«419917_j49512382988573_1_alg».proof.Proof.LibConcatRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeValue

open Cert.KernelIdeal Cert.KernelIdeal.Gen Idealize.ShloMosaic Idealize.ShloMosaic.ValueIdx EdgeMlp

/-! ## The three products' operand indices, axis by axis -/

/-- The gather product contracts the NODE axis of both operands (axis 0 of each): the 0/1 matrix is read at
    (node, edge), -/
theorem gatherL_0 (i : S256x128.Idx) (q : dot_S10112x256_S10112x128_S256x128_0_0_1_1_n_n.contr.Idx) :
    (dot_S10112x256_S10112x128_S256x128_0_0_1_1_n_n.lhsIdx i q 0).val = (q ⟨0, by decide⟩).val :=
  dot_S10112x256_S10112x128_S256x128_0_0_1_1_n_n.lhsIdx_val_of_single rfl i q
theorem gatherL_1 (i : S256x128.Idx) (q : dot_S10112x256_S10112x128_S256x128_0_0_1_1_n_n.contr.Idx) :
    (dot_S10112x256_S10112x128_S256x128_0_0_1_1_n_n.lhsIdx i q 1).val = (i 0).val := by
  unfold DotDims.lhsIdx
  rw [dif_neg (show ¬(1 : Fin S10112x256.rank) ∈ dot_S10112x256_S10112x128_S256x128_0_0_1_1_n_n.lhsBatch by decide), dif_pos (show (1 : Fin S10112x256.rank) ∈ dot_S10112x256_S10112x128_S256x128_0_0_1_1_n_n.lhsNonContracting by decide)]
  rfl
/-- and the node table at (node, feature). -/
theorem gatherR_0 (i : S256x128.Idx) (q : dot_S10112x256_S10112x128_S256x128_0_0_1_1_n_n.contr.Idx) :
    (dot_S10112x256_S10112x128_S256x128_0_0_1_1_n_n.rhsIdx i q 0).val = (q ⟨0, by decide⟩).val :=
  dot_S10112x256_S10112x128_S256x128_0_0_1_1_n_n.rhsIdx_val_of_single rfl i q
theorem gatherR_1 (i : S256x128.Idx) (q : dot_S10112x256_S10112x128_S256x128_0_0_1_1_n_n.contr.Idx) :
    (dot_S10112x256_S10112x128_S256x128_0_0_1_1_n_n.rhsIdx i q 1).val = (i 1).val := by
  unfold DotDims.rhsIdx
  rw [dif_neg (show ¬(1 : Fin S10112x128.rank) ∈ dot_S10112x256_S10112x128_S256x128_0_0_1_1_n_n.rhsBatch by decide), dif_pos (show (1 : Fin S10112x128.rank) ∈ dot_S10112x256_S10112x128_S256x128_0_0_1_1_n_n.rhsNonContracting by decide)]
  rfl

/-- The first layer contracts the input row's 320 entries against the weight's rows. -/
theorem layer1L_0 (i : S256x128.Idx) (q : dot_S256x320_S320x128_S256x128_1_0_0_1_n_n.contr.Idx) :
    (dot_S256x320_S320x128_S256x128_1_0_0_1_n_n.lhsIdx i q 0).val = (i 0).val := by
  unfold DotDims.lhsIdx
  rw [dif_neg (show ¬(0 : Fin S256x320.rank) ∈ dot_S256x320_S320x128_S256x128_1_0_0_1_n_n.lhsBatch by decide), dif_pos (show (0 : Fin S256x320.rank) ∈ dot_S256x320_S320x128_S256x128_1_0_0_1_n_n.lhsNonContracting by decide)]
  rfl
theorem layer1L_1 (i : S256x128.Idx) (q : dot_S256x320_S320x128_S256x128_1_0_0_1_n_n.contr.Idx) :
    (dot_S256x320_S320x128_S256x128_1_0_0_1_n_n.lhsIdx i q 1).val = (q ⟨0, by decide⟩).val :=
  dot_S256x320_S320x128_S256x128_1_0_0_1_n_n.lhsIdx_val_of_single rfl i q
theorem layer1R_0 (i : S256x128.Idx) (q : dot_S256x320_S320x128_S256x128_1_0_0_1_n_n.contr.Idx) :
    (dot_S256x320_S320x128_S256x128_1_0_0_1_n_n.rhsIdx i q 0).val = (q ⟨0, by decide⟩).val :=
  dot_S256x320_S320x128_S256x128_1_0_0_1_n_n.rhsIdx_val_of_single rfl i q
theorem layer1R_1 (i : S256x128.Idx) (q : dot_S256x320_S320x128_S256x128_1_0_0_1_n_n.contr.Idx) :
    (dot_S256x320_S320x128_S256x128_1_0_0_1_n_n.rhsIdx i q 1).val = (i 1).val := by
  unfold DotDims.rhsIdx
  rw [dif_neg (show ¬(1 : Fin S320x128.rank) ∈ dot_S256x320_S320x128_S256x128_1_0_0_1_n_n.rhsBatch by decide), dif_pos (show (1 : Fin S320x128.rank) ∈ dot_S256x320_S320x128_S256x128_1_0_0_1_n_n.rhsNonContracting by decide)]
  rfl

/-- The second layer contracts the hidden row's 128 entries against the weight's rows. -/
theorem layer2L_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem layer2L_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem layer2R_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem layer2R_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-! ## Each product into a zero accumulator, at an entry: a plain sum -/

/-- Entry (edge r, feature d) of the gather product: the sum over the 10112 node rows. -/
theorem gatherDot_apply (A : FVec Ideal S10112x256 .bf16) (B : FVec Ideal S10112x128 .bf16) (r : Fin 256) (d : Fin 128) :
    matmul dot_S10112x256_S10112x128_S256x128_0_0_1_1_n_n none A B (constant S256x128 .f32 0x00000000#32) (ix2 r d)
      = ∑ n : Fin 10112, A (ix2 n r) * B (ix2 n d) := by
  simp only [matmul]
  rw [Ideal.matmul_constant_zero_apply, ← Equiv.sum_comp (contrEquiv1 dot_S10112x256_S10112x128_S256x128_0_0_1_1_n_n 10112 rfl rfl).symm]
  refine Finset.sum_congr rfl fun n _ => ?_
  have hk := contrEquiv1_symm_val dot_S10112x256_S10112x128_S256x128_0_0_1_1_n_n 10112 rfl rfl n
  have el : dot_S10112x256_S10112x128_S256x128_0_0_1_1_n_n.lhsIdx (ix2 r d) ((contrEquiv1 dot_S10112x256_S10112x128_S256x128_0_0_1_1_n_n 10112 rfl rfl).symm n) = ix2 n r := funext fun a => Fin.ext (by
    match a with
    | ⟨0, _⟩ => exact (gatherL_0 _ _).trans hk
    | ⟨1, _⟩ => exact gatherL_1 _ _)
  have er : dot_S10112x256_S10112x128_S256x128_0_0_1_1_n_n.rhsIdx (ix2 r d) ((contrEquiv1 dot_S10112x256_S10112x128_S256x128_0_0_1_1_n_n 10112 rfl rfl).symm n) = ix2 n d := funext fun a => Fin.ext (by
    match a with
    | ⟨0, _⟩ => exact (gatherR_0 _ _).trans hk
    | ⟨1, _⟩ => exact gatherR_1 _ _)
  rw [el, er]

/-- Entry (edge r, hidden j) of the first layer's product: the sum over the 320 inputs. -/
theorem layer1Dot_apply (A : FVec Ideal S256x320 .bf16) (B : FVec Ideal S320x128 .bf16) (r : Fin 256) (j : Fin 128) :
    matmul dot_S256x320_S320x128_S256x128_1_0_0_1_n_n none A B (constant S256x128 .f32 0x00000000#32) (ix2 r j)
      = ∑ k : Fin 320, A (ix2 r k) * B (ix2 k j) := by
  simp only [matmul]
  rw [Ideal.matmul_constant_zero_apply, ← Equiv.sum_comp (contrEquiv1 dot_S256x320_S320x128_S256x128_1_0_0_1_n_n 320 rfl rfl).symm]
  refine Finset.sum_congr rfl fun k _ => ?_
  have hk := contrEquiv1_symm_val dot_S256x320_S320x128_S256x128_1_0_0_1_n_n 320 rfl rfl k
  have el : dot_S256x320_S320x128_S256x128_1_0_0_1_n_n.lhsIdx (ix2 r j) ((contrEquiv1 dot_S256x320_S320x128_S256x128_1_0_0_1_n_n 320 rfl rfl).symm k) = ix2 r k := funext fun a => Fin.ext (by
    match a with
    | ⟨0, _⟩ => exact layer1L_0 _ _
    | ⟨1, _⟩ => exact (layer1L_1 _ _).trans hk)
  have er : dot_S256x320_S320x128_S256x128_1_0_0_1_n_n.rhsIdx (ix2 r j) ((contrEquiv1 dot_S256x320_S320x128_S256x128_1_0_0_1_n_n 320 rfl rfl).symm k) = ix2 k j := funext fun a => Fin.ext (by
    match a with
    | ⟨0, _⟩ => exact (layer1R_0 _ _).trans hk
    | ⟨1, _⟩ => exact layer1R_1 _ _)
  rw [el, er]

/-- Entry (edge r, output o) of the second layer's product: the sum over the 128 hidden entries. -/
theorem layer2Dot_apply (A : FVec Ideal S256x128 .bf16) (B : FVec Ideal S128x128 .bf16) (r : Fin 256) (o : Fin 128) :
    matmul dot_S256x128_S128x128_S256x128_1_0_0_1_n_n none A B (constant S256x128 .f32 0x00000000#32) (ix2 r o)
      = ∑ j : Fin 128, A (ix2 r j) * B (ix2 j o) := by
  simp only [matmul]
  rw [Ideal.matmul_constant_zero_apply, ← Equiv.sum_comp (contrEquiv1 dot_S256x128_S128x128_S256x128_1_0_0_1_n_n 128 rfl rfl).symm]
  refine Finset.sum_congr rfl fun j _ => ?_
  have hk := contrEquiv1_symm_val dot_S256x128_S128x128_S256x128_1_0_0_1_n_n 128 rfl rfl j
  have el : dot_S256x128_S128x128_S256x128_1_0_0_1_n_n.lhsIdx (ix2 r o) ((contrEquiv1 dot_S256x128_S128x128_S256x128_1_0_0_1_n_n 128 rfl rfl).symm j) = ix2 r j := funext fun a => Fin.ext (by
    match a with
    | ⟨0, _⟩ => exact layer2L_0 _ _
    | ⟨1, _⟩ => exact (layer2L_1 _ _).trans hk)
  have er : dot_S256x128_S128x128_S256x128_1_0_0_1_n_n.rhsIdx (ix2 r o) ((contrEquiv1 dot_S256x128_S128x128_S256x128_1_0_0_1_n_n 128 rfl rfl).symm j) = ix2 j o := funext fun a => Fin.ext (by
    match a with
    | ⟨0, _⟩ => exact (layer2R_0 _ _).trans hk
    | ⟨1, _⟩ => exact layer2R_1 _ _)
  rw [el, er]

/-! ## The gather as a product -/

/-- The 0/1 matrix of a block's node words: entry (node n, edge r) is the comparison of position `n` with edge
    `r`'s word, widened and read as a number. -/
theorem onehot_apply (v : IVec S1x256 32) (hio : S10112x256.Iotas .tc 32 [0])
    (hbc : S1x256.Broadcasts S10112x256) (hlt : 1 < 32) (hb : FTy.bits .bf16 < FTy.bits .f32) (n : Fin 10112) (r : Fin 256) :
    (truncf .bf16 (sitofp .f32 (extui 32 (cmpi .eq (iota .tc S10112x256 32 [0] hio)
      (broadcastTo S10112x256 v hbc)) hlt) : FVec Ideal S10112x256 .f32) hb : FVec Ideal S10112x256 .bf16) (ix2 n r)
      = bitWeight (IntOp.cmpi .eq (BitVec.ofNat 32 n.val) (v (ix2 (0 : Fin 1) r))) := by
  show bitWeight (IntOp.cmpi .eq (iota .tc S10112x256 32 [0] hio (ix2 n r)) (broadcastTo S10112x256 v hbc (ix2 n r))) = _
  rw [iota_single_apply, broadcastTo_1b_ab_apply]

/-- Row `w` of the padded node table at feature `d`, the word read unsigned (capped at the table's last row, so that
    the function is total; the cap is never reached where it is used). -/
def rowAt (xp : FVec Ideal S10112x128 .bf16) (w : BitVec 32) (d : Fin 128) : EReal :=
  xp (ix2 (⟨min w.toNat 10111, by omega⟩ : Fin 10112) d)

/-- THE GATHER: the product of the 0/1 matrix with the node table, at (edge r, feature d), is the table's row
    named by edge `r`'s word, when that word is one of the 10112 positions. -/
theorem gather_product (v : IVec S1x256 32) (xp : FVec Ideal S10112x128 .bf16) (hio : S10112x256.Iotas .tc 32 [0])
    (hbc : S1x256.Broadcasts S10112x256) (hlt : 1 < 32) (hb : FTy.bits .bf16 < FTy.bits .f32)
    (r : Fin 256) (d : Fin 128) (hv : (v (ix2 (0 : Fin 1) r)).toNat < 10112) :
    matmul dot_S10112x256_S10112x128_S256x128_0_0_1_1_n_n none
      (truncf .bf16 (sitofp .f32 (extui 32 (cmpi .eq (iota .tc S10112x256 32 [0] hio)
        (broadcastTo S10112x256 v hbc)) hlt) : FVec Ideal S10112x256 .f32) hb)
      xp (constant S256x128 .f32 0x00000000#32) (ix2 r d)
      = rowAt xp (v (ix2 (0 : Fin 1) r)) d := by
  have hrow : rowAt xp (v (ix2 (0 : Fin 1) r)) d = xp (ix2 (⟨(v (ix2 (0 : Fin 1) r)).toNat, hv⟩ : Fin 10112) d) := by
    unfold rowAt
    exact congrArg (fun n : Fin 10112 => xp (ix2 n d)) (Fin.ext (by show min (v (ix2 (0 : Fin 1) r)).toNat 10111 = (v (ix2 (0 : Fin 1) r)).toNat; omega))
  rw [hrow, gatherDot_apply, ← sum_indicator (N := 10112) (by norm_num) (v (ix2 (0 : Fin 1) r)) hv (fun n => xp (ix2 n d))]
  refine Finset.sum_congr rfl fun n _ => ?_
  rw [onehot_apply]

/-! ## The body's values at an entry -/

/-- THE HIDDEN BLOCK at (edge r, hidden j): the 320-term sum of the joined row against the first weight's column,
    plus the bias, and the maximum with zero — the joined row being the two gathered rows and the edge's own. -/
theorem hidden_apply (v0 v2 : Vec Ideal S1x256 .i32) (xa xb : Vec Ideal S10112x128 .bf16) (ea : Vec Ideal S256x64 .f32)
    (w1 : Vec Ideal S320x128 .bf16) (bb1 : Vec Ideal S1x128 .f32) (r : Fin 256) (j : Fin 128)
    (h0 : (v0 (ix2 (0 : Fin 1) r)).toNat < 10112) (h2 : (v2 (ix2 (0 : Fin 1) r)).toNat < 10112) :
    k0_pay2 v0 v2 xa xb ea w1 bb1 (ix2 r j)
      = max ((∑ k : Fin 320, pick (fun d => rowAt xa (v0 (ix2 (0 : Fin 1) r)) d)
            (fun d => rowAt xb (v2 (ix2 (0 : Fin 1) r)) d) (fun d => ea (ix2 r d)) k * w1 (ix2 k j))
          + bb1 (ix2 (0 : Fin 1) j)) 0 := by
  unfold k0_pay2
  dsimp only
  simp only [shapeCast_self]
  rw [truncf_apply, maximumf_apply, addf_apply, broadcast_apply, layer1Dot_apply, broadcastTo_1b_ab_apply]
  congr 1
  · congr 1
    refine Finset.sum_congr rfl fun k _ => ?_
    rw [concat3_apply]
    congr 1
    congr 1 <;> funext d
    · rw [truncf_apply, gather_product _ _ _ _ _ _ r d (by rw [shapeCast_self]; exact h0), shapeCast_self, shapeCast_self]
    · rw [truncf_apply, gather_product _ _ _ _ _ _ r d (by rw [shapeCast_self]; exact h2), shapeCast_self, shapeCast_self]
  · exact Ideal.ofBits_zero_f32

/-- THE OUTPUT BLOCK at (edge r, output o), from a hidden block: the 128-term sum against the second weight's
    column, plus the bias. -/
theorem out_apply (h : Vec Ideal S256x128 .bf16) (w2 : Vec Ideal S128x128 .bf16) (bb2 : Vec Ideal S1x128 .f32)
    (r : Fin 256) (o : Fin 128) :
    k0_pay1 h (k0_pay3 w2) (constant S256x128 .f32 0x00000000#32) bb2 (ix2 r o)
      = (∑ j : Fin 128, h (ix2 r j) * w2 (ix2 j o)) + bb2 (ix2 (0 : Fin 1) o) := by
  unfold k0_pay1 k0_pay3
  dsimp only
  simp only [shapeCast_self]
  rw [addf_apply, layer2Dot_apply, broadcastTo_1b_ab_apply]

/-- The body's result at (edge r, output o) from its eight loads, the node words of the block being positions of
    the padded table. -/
theorem body_apply (v0 v2 : Vec Ideal S1x256 .i32) (xp : Vec Ideal S10112x128 .bf16) (ea : Vec Ideal S256x64 .f32)
    (w1 : Vec Ideal S320x128 .bf16) (bb1 : Vec Ideal S1x128 .f32) (w2 : Vec Ideal S128x128 .bf16) (bb2 : Vec Ideal S1x128 .f32)
    (h0 : ∀ r : Fin 256, (v0 (ix2 (0 : Fin 1) r)).toNat < 10112) (h2 : ∀ r : Fin 256, (v2 (ix2 (0 : Fin 1) r)).toNat < 10112)
    (r : Fin 256) (o : Fin 128) :
    k0_pay1 (k0_pay2 v0 v2 xp xp ea w1 bb1) (k0_pay3 w2) (constant S256x128 .f32 0x00000000#32) bb2 (ix2 r o)
      = (∑ j : Fin 128, max ((∑ k : Fin 320, pick (fun d => rowAt xp (v0 (ix2 (0 : Fin 1) r)) d)
            (fun d => rowAt xp (v2 (ix2 (0 : Fin 1) r)) d) (fun d => ea (ix2 r d)) k * w1 (ix2 k j))
          + bb1 (ix2 (0 : Fin 1) j)) 0 * w2 (ix2 j o)) + bb2 (ix2 (0 : Fin 1) o) := by
  rw [out_apply]
  congr 1
  refine Finset.sum_congr rfl fun j _ => ?_
  rw [hidden_apply v0 v2 xp xp ea w1 bb1 r j (h0 r) (h2 r)]

end Cert.KernelIdeal.EdgeValue

end
-- ==== Proof.KernelArrays.lean ====
/-
  From the kernel's blocks to its whole result array, over the extended reals.

  Before the region the program re-lays its arguments: the two rows of the edge-index array as 1 × 640000 arrays,
  the node table padded with 112 zero rows, the weights in another float format (the identity here), the biases as
  1 × 128 arrays. Grid point `t` sees edges `256 t … 256 t + 255`: that slice of each per-edge array, and the
  whole of the table, the weights and the biases. Its 256 × 128 result is therefore rows `256 t …` of the edge
  network's result — provided every node word names a row of the unpadded table — and the 2500 points' blocks tile
  the 640000 rows.
-/
import proofs.«419917_j49512382988573_1_alg».proof.Proof.Gen.KernelIdeal.Value
import proofs.«419917_j49512382988573_1_alg».proof.Proof.KernelBody
import Idealize.ShloMosaic.Lib.StableHlo.Run
import Idealize.ShloMosaic.Lib.KernelVsHost
import Idealize.ShloMosaic.Lib.ValueLayout
import Idealize.ShloMosaic.Lib.Pipeline.Value

set_option maxRecDepth 16384

noncomputable section

open scoped BigOperators

namespace Cert.KernelIdeal.EdgeValue

open Cert.KernelIdeal Cert.KernelIdeal.Gen Idealize.ShloMosaic Idealize.ShloMosaic.TcCoe Idealize.SL.Sem
open Idealize.ShloMosaic.ValueIdx EdgeMlp Idealize.ShloMosaic.StableHlo
open Idealize.ShloMosaic.Pipeline (Dat)

variable (m : (ℓ : Loc nD τ sig) → Buf (Elt Ideal) ℓ)

/-! ## The arrays the region finds, as the re-laying of the arguments -/

theorem V_src (c : Dev nD) : (V m c main_v4 : S1x640000.Idx → BitVec 32)
    = shapeCast _ (shapeCast _ (extractStridedSlice S1x640000 ![0, 0] (m ((c : Thread nD τ).loc main_arg1)) slices_S2x640000_S1x640000_0_0) shapeCasts_S1x640000_S640000) shapeCasts_S640000_S1x640000 := by
  dsimp only [V]
  simp only [hostOps0, hostOps0_1, hostOps0_2, List.flatten_cons, List.flatten_nil, List.append_nil, List.cons_append, List.nil_append]
  after_results; rfl

theorem V_tgt (c : Dev nD) : (V m c main_v7 : S1x640000.Idx → BitVec 32)
    = shapeCast _ (shapeCast _ (extractStridedSlice S1x640000 ![1, 0] (m ((c : Thread nD τ).loc main_arg1)) slices_S2x640000_S1x640000_1_0) shapeCasts_S1x640000_S640000) shapeCasts_S640000_S1x640000 := by
  dsimp only [V]
  simp only [hostOps0, hostOps0_1, hostOps0_2, List.flatten_cons, List.flatten_nil, List.append_nil, List.cons_append, List.nil_append]
  after_results; rfl

theorem V_table (c : Dev nD) : (V m c main_v1 : S10112x128.Idx → EReal)
    = pad S10112x128 ![0, 0] ![112, 0] ![0, 0] (truncf .bf16 (m ((c : Thread nD τ).loc main_arg0)) bitsLt_bf16_f32 : FVec Ideal S10000x128 .bf16)
        (sitofp .bf16 (constantI S_ 32 0#32) : FVec Ideal S_ .bf16) pads_S10000x128_S10112x128_01120_000 h_S_ := by
  dsimp only [V]
  simp only [hostOps0, hostOps0_1, hostOps0_2, List.flatten_cons, List.flatten_nil, List.append_nil, List.cons_append, List.nil_append]
  after_results; rfl

theorem V_w1 (c : Dev nD) : (V m c main_v8 : S320x128.Idx → EReal) = m ((c : Thread nD τ).loc main_arg3) := by
  dsimp only [V]
  simp only [hostOps0, hostOps0_1, hostOps0_2, List.flatten_cons, List.flatten_nil, List.append_nil, List.cons_append, List.nil_append]
  after_results; rfl

theorem V_w2 (c : Dev nD) : (V m c main_v9 : S128x128.Idx → EReal) = m ((c : Thread nD τ).loc main_arg5) := by
  dsimp only [V]
  simp only [hostOps0, hostOps0_1, hostOps0_2, List.flatten_cons, List.flatten_nil, List.append_nil, List.cons_append, List.nil_append]
  after_results; rfl

theorem V_b1 (c : Dev nD) : (V m c main_v10 : S1x128.Idx → EReal) = shapeCast _ (m ((c : Thread nD τ).loc main_arg4)) shapeCasts_S128_S1x128 := by
  dsimp only [V]
  simp only [hostOps0, hostOps0_1, hostOps0_2, List.flatten_cons, List.flatten_nil, List.append_nil, List.cons_append, List.nil_append]
  after_results; rfl

theorem V_b2 (c : Dev nD) : (V m c main_v11 : S1x128.Idx → EReal) = shapeCast _ (m ((c : Thread nD τ).loc main_arg6)) shapeCasts_S128_S1x128 := by
  dsimp only [V]
  simp only [hostOps0, hostOps0_1, hostOps0_2, List.flatten_cons, List.flatten_nil, List.append_nil, List.cons_append, List.nil_append]
  after_results; rfl

/-! ## … read at an index -/

/-- A 1 × 640000 array made from a 640000-vector made from row `p` of the 2 × 640000 array: entry (0, e) is (p, e). -/
theorem relaid_row_apply (X : S2x640000.Idx → BitVec 32) (p : Fin 2) (hs : S2x640000.Slices ![p.val, 0] S1x640000)
    (e : Fin 640000) :
    (shapeCast S1x640000 (shapeCast S640000 (extractStridedSlice S1x640000 ![p.val, 0] X hs) shapeCasts_S1x640000_S640000) shapeCasts_S640000_S1x640000 : S1x640000.Idx → BitVec 32) (ix2 (0 : Fin 1) e)
      = X (ix2 p e) := by
  rw [shapeCast_apply _ shapeCasts_S640000_S1x640000 (ix2 (0 : Fin 1) e) (ix1 e)
    (by rw [Shape.rowMajor_val_one, Shape.rowMajor_val_two]; show e.val = 0 * 640000 + e.val; omega)]
  rw [shapeCast_apply _ shapeCasts_S1x640000_S640000 (ix1 e) (ix2 (0 : Fin 1) e)
    (by rw [Shape.rowMajor_val_two, Shape.rowMajor_val_one]; show 0 * 640000 + e.val = e.val; omega)]
  exact extractStridedSlice_apply ![p.val, 0] X hs (ix2 (0 : Fin 1) e) (ix2 p e) (fun a => match a with
    | ⟨0, _⟩ => by show p.val = p.val + 0; omega
    | ⟨1, _⟩ => by show e.val = 0 + e.val; omega)

theorem src_apply (c : Dev nD) (e : Fin 640000) :
    (V m c main_v4 : S1x640000.Idx → BitVec 32) (ix2 (0 : Fin 1) e) = m ((c : Thread nD τ).loc main_arg1) (ix2 (0 : Fin 2) e) := by
  rw [V_src]; exact relaid_row_apply _ 0 slices_S2x640000_S1x640000_0_0 e

theorem tgt_apply (c : Dev nD) (e : Fin 640000) :
    (V m c main_v7 : S1x640000.Idx → BitVec 32) (ix2 (0 : Fin 1) e) = m ((c : Thread nD τ).loc main_arg1) (ix2 (1 : Fin 2) e) := by
  rw [V_tgt]; exact relaid_row_apply _ 1 slices_S2x640000_S1x640000_1_0 e

/-- The padded table at a row of the unpadded one is that row. -/
theorem table_apply (c : Dev nD) (n : Fin 10112) (d : Fin 128) (hn : n.val < 10000) :
    (V m c main_v1 : S10112x128.Idx → EReal) (ix2 n d) = m ((c : Thread nD τ).loc main_arg0) (ix2 (⟨n.val, hn⟩ : Fin 10000) d) := by
  rw [V_table]
  exact pad_apply_of_inside ![0, 0] ![112, 0] ![0, 0] _ _ pads_S10000x128_S10112x128_01120_000 h_S_ (ix2 n d)
    (ix2 (⟨n.val, hn⟩ : Fin 10000) d) (fun a => match a with
      | ⟨0, _⟩ => by show n.val = 0 + n.val * (0 + 1); omega
      | ⟨1, _⟩ => by show d.val = 0 + d.val * (0 + 1); omega)

/-- A bias as a 1 × 128 array: entry (0, j) is entry j. -/
theorem bias_row_apply (B : S128.Idx → EReal) (j : Fin 128) :
    (shapeCast S1x128 B shapeCasts_S128_S1x128 : S1x128.Idx → EReal) (ix2 (0 : Fin 1) j) = B (ix1 j) :=
  shapeCast_apply B shapeCasts_S128_S1x128 (ix2 (0 : Fin 1) j) (ix1 j)
    (by rw [Shape.rowMajor_val_one, Shape.rowMajor_val_two]; show j.val = 0 * 128 + j.val; omega)

/-! ## The grid points' blocks -/

/-- The printed index maps of the per-edge windows, decided over the 2500 points: the two node-word rows move along
    their 640000 columns, the edges' own numbers and the result along their rows, one block a point. -/
theorem idx_edge : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val ∧ win0_2.index t (1 : Fin 2) = 0
    ∧ win0_8.index t (0 : Fin 2) = t.val ∧ win0_8.index t (1 : Fin 2) = 0 :=
  (by decide +kernel : ∀ t : Fin grid0.N, _)

/-- The table, the weights and the biases are seen whole at every point. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 2500 := lt_of_lt_of_eq t.isLt N_0

/-- Edge `r` of point `t`'s block is edge `256 t + r` of the arrays. -/
theorem edge_lt (t : Fin cfg0.N) (r : Fin 256) : t.val * 256 + r.val < 640000 := by
  have := point_lt t; have := r.isLt; omega

theorem blk_src (c : Dev nD) (t : Fin cfg0.N) (r : Fin 256) :
    (iblk m c 0 t : S1x256.Idx → BitVec 32) (ix2 (0 : Fin 1) r)
      = m ((c : Thread nD τ).loc main_arg1) (ix2 (0 : Fin 2) (⟨t.val * 256 + r.val, edge_lt t r⟩ : Fin 640000)) := by
  obtain ⟨e0, e1, -⟩ := idx_edge t
  have he : ((cfg0.win 0).blk t).view.emb (ix2 (0 : Fin 1) r) = ix2 (0 : Fin 1) (⟨t.val * 256 + r.val, edge_lt t r⟩ : Fin 640000) := by
    funext a; apply Fin.ext
    match a with
    | ⟨0, _⟩ => show win0_0.index t (0 : Fin 2) * 1 + 1 * 0 = 0; rw [e0]
    | ⟨1, _⟩ => show win0_0.index t (1 : Fin 2) * 256 + 1 * r.val = t.val * 256 + r.val; rw [e1]; omega
  show V m c main_v4 (((cfg0.win 0).blk t).view.emb (ix2 (0 : Fin 1) r)) = _
  rw [he]; exact src_apply m c _

theorem blk_tgt (c : Dev nD) (t : Fin cfg0.N) (r : Fin 256) :
    (iblk m c 1 t : S1x256.Idx → BitVec 32) (ix2 (0 : Fin 1) r)
      = m ((c : Thread nD τ).loc main_arg1) (ix2 (1 : Fin 2) (⟨t.val * 256 + r.val, edge_lt t r⟩ : Fin 640000)) := by
  obtain ⟨-, -, e0, e1, -⟩ := idx_edge t
  have he : ((cfg0.win 1).blk t).view.emb (ix2 (0 : Fin 1) r) = ix2 (0 : Fin 1) (⟨t.val * 256 + r.val, edge_lt t r⟩ : Fin 640000) := by
    funext a; apply Fin.ext
    match a with
    | ⟨0, _⟩ => show win0_1.index t (0 : Fin 2) * 1 + 1 * 0 = 0; rw [e0]
    | ⟨1, _⟩ => show win0_1.index t (1 : Fin 2) * 256 + 1 * r.val = t.val * 256 + r.val; rw [e1]; omega
  show V m c main_v7 (((cfg0.win 1).blk t).view.emb (ix2 (0 : Fin 1) r)) = _
  rw [he]; exact tgt_apply m c _

theorem blk_attr (c : Dev nD) (t : Fin cfg0.N) (r : Fin 256) (d : Fin 64) :
    (iblk m c 2 t : S256x64.Idx → EReal) (ix2 r d)
      = m ((c : Thread nD τ).loc main_arg2) (ix2 (⟨t.val * 256 + r.val, edge_lt t r⟩ : Fin 640000) d) := by
  obtain ⟨-, -, -, -, e0, e1, -⟩ := idx_edge t
  show V m c main_arg2 (((cfg0.win 2).blk t).view.emb (ix2 r d)) = _
  rw [V_main_arg2]
  refine congrArg _ (funext fun a => Fin.ext ?_)
  match a with
  | ⟨0, _⟩ => show win0_2.index t (0 : Fin 2) * 256 + 1 * r.val = t.val * 256 + r.val; rw [e0]; omega
  | ⟨1, _⟩ => show win0_2.index t (1 : Fin 2) * 64 + 1 * d.val = d.val; rw [e1]; omega

theorem blk_table (c : Dev nD) (t : Fin cfg0.N) (n : Fin 10112) (d : Fin 128) :
    (iblk m c 3 t : S10112x128.Idx → EReal) (ix2 n d) = (V m c main_v1 : S10112x128.Idx → EReal) (ix2 n d) := by
  obtain ⟨e0, e1, -⟩ := idx_whole t
  show V m c main_v1 (((cfg0.win 3).blk t).view.emb (ix2 n d)) = _
  refine congrArg _ (funext fun a => Fin.ext ?_)
  match a with
  | ⟨0, _⟩ => show win0_3.index t (0 : Fin 2) * 10112 + 1 * n.val = n.val; rw [e0]; omega
  | ⟨1, _⟩ => show win0_3.index t (1 : Fin 2) * 128 + 1 * d.val = d.val; rw [e1]; omega

theorem blk_w1 (c : Dev nD) (t : Fin cfg0.N) (k : Fin 320) (j : Fin 128) :
    (iblk m c 4 t : S320x128.Idx → EReal) (ix2 k j) = m ((c : Thread nD τ).loc main_arg3) (ix2 k j) := by
  obtain ⟨-, -, e0, e1, -⟩ := idx_whole t
  show V m c main_v8 (((cfg0.win 4).blk t).view.emb (ix2 k j)) = _
  rw [V_w1]
  refine congrArg _ (funext fun a => Fin.ext ?_)
  match a with
  | ⟨0, _⟩ => show win0_4.index t (0 : Fin 2) * 320 + 1 * k.val = k.val; rw [e0]; omega
  | ⟨1, _⟩ => show win0_4.index t (1 : Fin 2) * 128 + 1 * j.val = j.val; rw [e1]; omega

theorem blk_b1 (c : Dev nD) (t : Fin cfg0.N) (j : Fin 128) :
    (iblk m c 5 t : S1x128.Idx → EReal) (ix2 (0 : Fin 1) j) = m ((c : Thread nD τ).loc main_arg4) (ix1 j) := by
  obtain ⟨-, -, -, -, e0, e1, -⟩ := idx_whole t
  have he : ((cfg0.win 5).blk t).view.emb (ix2 (0 : Fin 1) j) = ix2 (0 : Fin 1) j := by
    funext a; apply Fin.ext
    match a with
    | ⟨0, _⟩ => show win0_5.index t (0 : Fin 2) * 1 + 1 * 0 = 0; rw [e0]
    | ⟨1, _⟩ => show win0_5.index t (1 : Fin 2) * 128 + 1 * j.val = j.val; rw [e1]; omega
  show V m c main_v10 (((cfg0.win 5).blk t).view.emb (ix2 (0 : Fin 1) j)) = _
  rw [he, V_b1]; exact bias_row_apply _ j

theorem blk_w2 (c : Dev nD) (t : Fin cfg0.N) (j : Fin 128) (o : Fin 128) :
    (iblk m c 6 t : S128x128.Idx → EReal) (ix2 j o) = m ((c : Thread nD τ).loc main_arg5) (ix2 j o) := by
  obtain ⟨-, -, -, -, -, -, e0, e1, -⟩ := idx_whole t
  show V m c main_v9 (((cfg0.win 6).blk t).view.emb (ix2 j o)) = _
  rw [V_w2]
  refine congrArg _ (funext fun a => Fin.ext ?_)
  match a with
  | ⟨0, _⟩ => show win0_6.index t (0 : Fin 2) * 128 + 1 * j.val = j.val; rw [e0]; omega
  | ⟨1, _⟩ => show win0_6.index t (1 : Fin 2) * 128 + 1 * o.val = o.val; rw [e1]; omega

theorem blk_b2 (c : Dev nD) (t : Fin cfg0.N) (o : Fin 128) :
    (iblk m c 7 t : S1x128.Idx → EReal) (ix2 (0 : Fin 1) o) = m ((c : Thread nD τ).loc main_arg6) (ix1 o) := by
  obtain ⟨-, -, -, -, -, -, -, -, e0, e1⟩ := idx_whole t
  have he : ((cfg0.win 7).blk t).view.emb (ix2 (0 : Fin 1) o) = ix2 (0 : Fin 1) o := by
    funext a; apply Fin.ext
    match a with
    | ⟨0, _⟩ => show win0_7.index t (0 : Fin 2) * 1 + 1 * 0 = 0; rw [e0]
    | ⟨1, _⟩ => show win0_7.index t (1 : Fin 2) * 128 + 1 * o.val = o.val; rw [e1]; omega
  show V m c main_v11 (((cfg0.win 7).blk t).view.emb (ix2 (0 : Fin 1) o)) = _
  rw [he, V_b2]; exact bias_row_apply _ o

/-! ## A point's block is its rows of the edge network's result -/

/-- The padded table's row named by a word below 10000 is the unpadded table's row the word names. -/
theorem table_row (c : Dev nD) (t : Fin cfg0.N) (w : BitVec 32) (hw : w.toNat < 10000) (d : Fin 128) :
    rowAt (iblk m c 3 t) w d = m ((c : Thread nD τ).loc main_arg0) (ix2 (node w) d) := by
  unfold rowAt
  rw [blk_table, table_apply m c _ d (by show min w.toNat 10111 < 10000; omega)]
  exact congrArg (fun n : Fin 10000 => m ((c : Thread nD τ).loc main_arg0) (ix2 n d))
    (Fin.ext (by show min w.toNat 10111 = min w.toNat 9999; omega))

theorem hz : (![0, 0] : Fin 2 → Nat) = fun _ => 0 := funext fun a => by fin_cases a <;> rfl

/-- THE BLOCK'S VALUE: entry (r, o) of what point `t`'s body leaves is entry (256 t + r, o) of the edge network's
    result. -/
theorem block_value (hidx : ∀ (c : Dev nD) i, (m ((c : Thread nD τ).loc main_arg1) i).toNat < 10000) (c : Dev nD) (t : Fin cfg0.N) (r : Fin 256) (o : Fin 128) :
    out0_8 (iblk m c 0 t) (iblk m c 1 t) (iblk m c 2 t) (iblk m c 3 t) (iblk m c 4 t) (iblk m c 5 t) (iblk m c 6 t) (iblk m c 7 t) (ix2 r o)
      = EdgeMlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨t.val * 256 + r.val, edge_lt t r⟩ : Fin 640000) o) := by
  have es : ∀ d : Fin 128, rowAt (iblk m c 3 t) ((iblk m c 0 t : S1x256.Idx → BitVec 32) (ix2 (0 : Fin 1) r)) d
      = (m ((c : Thread nD τ).loc main_arg0)) (ix2 (node ((m ((c : Thread nD τ).loc main_arg1)) (ix2 (0 : Fin 2) (⟨t.val * 256 + r.val, edge_lt t r⟩ : Fin 640000)))) d) := fun d => by
    rw [blk_src]; exact table_row m c t _ (hidx c _) d
  have et : ∀ d : Fin 128, rowAt (iblk m c 3 t) ((iblk m c 1 t : S1x256.Idx → BitVec 32) (ix2 (0 : Fin 1) r)) d
      = (m ((c : Thread nD τ).loc main_arg0)) (ix2 (node ((m ((c : Thread nD τ).loc main_arg1)) (ix2 (1 : Fin 2) (⟨t.val * 256 + r.val, edge_lt t r⟩ : Fin 640000)))) d) := fun d => by
    rw [blk_tgt]; exact table_row m c t _ (hidx c _) d
  have h0 : ∀ r' : Fin 256, ((iblk m c 0 t : S1x256.Idx → BitVec 32) (ix2 (0 : Fin 1) r')).toNat < 10112 := fun r' => by
    rw [blk_src]; have := hidx c (ix2 (0 : Fin 2) (⟨t.val * 256 + r'.val, edge_lt t r'⟩ : Fin 640000)); omega
  have h2 : ∀ r' : Fin 256, ((iblk m c 1 t : S1x256.Idx → BitVec 32) (ix2 (0 : Fin 1) r')).toNat < 10112 := fun r' => by
    rw [blk_tgt]; have := hidx c (ix2 (1 : Fin 2) (⟨t.val * 256 + r'.val, edge_lt t r'⟩ : Fin 640000)); omega
  unfold out0_8
  rw [View.canon_unit_zero hz]
  simp only [View.ld_unit_zero (S := S1x256) hz, View.ld_unit_zero (S := S10112x128) hz, View.ld_unit_zero (S := S256x64) hz,
    View.ld_unit_zero (S := S320x128) hz, View.ld_unit_zero (S := S1x128) hz, View.ld_unit_zero (S := S128x128) hz]
  refine (body_apply (iblk m c 0 t) (iblk m c 1 t) (iblk m c 3 t) (iblk m c 2 t) (iblk m c 4 t) (iblk m c 5 t) (iblk m c 6 t)
    (iblk m c 7 t) h0 h2 r o).trans ?_
  simp only [es, et, blk_attr m c t, blk_w1 m c t, blk_b1 m c t, blk_w2 m c t, blk_b2 m c t]
  rfl

/-- WHAT POINT `t` WRITES BACK is block `t` of the edge network's result. -/
theorem flushed_eq (hidx : ∀ (c : Dev nD) i, (m ((c : Thread nD τ).loc main_arg1) i).toNat < 10000) (c : Dev nD) (t : Fin cfg0.N) :
    (dats m 0 c).flushed 8 t = ((cfg0.win 8).blk t).view.read (Elt Ideal) (EdgeMlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  obtain ⟨-, -, -, -, -, -, e0, e1⟩ := idx_edge t
  have key : ∀ y : S256x128.Idx, out0_8 (iblk m c 0 t) (iblk m c 1 t) (iblk m c 2 t) (iblk m c 3 t) (iblk m c 4 t) (iblk m c 5 t) (iblk m c 6 t) (iblk m c 7 t) y
      = EdgeMlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := fun y => by
    obtain ⟨r, o, rfl⟩ : ∃ (r : Fin 256) (o : Fin 128), y = ix2 r o := ⟨y 0, y 1, eq_ix2 y⟩
    rw [block_value m hidx c t r o]
    refine congrArg _ (funext fun a => Fin.ext ?_)
    match a with
    | ⟨0, _⟩ => show t.val * 256 + r.val = win0_8.index t (0 : Fin 2) * 256 + 1 * r.val; rw [e0]; omega
    | ⟨1, _⟩ => show o.val = win0_8.index t (1 : Fin 2) * 128 + 1 * o.val; rw [e1]; omega
  exact funext key

/-! ## The blocks tile the result array -/

theorem mem_blk (t : Fin cfg0.N) (i : S640000x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v12).slice (win0_8.rect t)).set ↔ _
  rw [View.set_slice_whole, Rect.mem_set_unit]
  exact Iff.rfl

/-- Row `R` of the result lies in the block of point `R / 256`. -/
theorem cover (i : S640000x128.Idx) : ∃ t : Fin cfg0.N, (cfg0.win 8).flush t = true ∧ i ∈ ((cfg0.win 8).blk t).view.set := by
  have hi0 : (i 0).val < 640000 := (i 0).isLt
  have hi1 : (i 1).val < 128 := (i 1).isLt
  have hN : cfg0.N = 2500 := N_0
  have hlt : (i 0).val / 256 < cfg0.N := by rw [hN]; omega
  obtain ⟨-, -, -, -, -, -, e0, e1⟩ := idx_edge ⟨(i 0).val / 256, hlt⟩
  refine ⟨⟨(i 0).val / 256, hlt⟩, flush0_8 _, ?_⟩
  rw [mem_blk]
  intro a
  match a with
  | ⟨0, _⟩ =>
    show win0_8.index ⟨(i 0).val / 256, hlt⟩ (0 : Fin 2) * 256 ≤ (i 0).val ∧ (i 0).val < win0_8.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hlt⟩ (1 : Fin 2) * 128 ≤ (i 1).val ∧ (i 1).val < win0_8.index ⟨(i 0).val / 256, hlt⟩ (1 : Fin 2) * 128 + 128
    rw [e1]; omega

/-- THE RESULT ARRAY after the run is the edge network's function of the argument arrays. -/
theorem final (hidx : ∀ (c : Dev nD) i, (m ((c : Thread nD τ).loc main_arg1) i).toNat < 10000) (c : Dev nD) : (dats m 0 c).arrAt 8 cfg0.N = EdgeMlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => flushed_eq m hidx c t) cover

/-- The kernel's run, read: it terminates with the result array at the edge network's function of the arguments,
    the arguments unchanged. -/
theorem run (hidx : ∀ (c : Dev nD) i, (m ((c : Thread nD τ).loc main_arg1) i).toNat < 10000) (ρ : Dev nD → PrngReg) : θ_run defs (onTc (τ := τ) (main (F := Ideal))) ⟨m, fun _ => 0, ρ⟩ fun r => ∀ c : Dev nD,
      r.2.mem ((c : Thread nD τ).loc main_v12) = EdgeMlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hidx c), (h c).2⟩) (Value.run_blocks m ρ)

end Cert.KernelIdeal.EdgeValue

end
-- ==== Proof.RefValue.lean ====
/-
  The reference's result array is the edge network's function of the seven arrays, over the extended reals,
  wherever every node word lies in `[0, 10000)`.

  The reference reads a node word signed, adds 10000 to a negative one, and gathers the table's row at the result
  clamped into `[0, 9999]`. For a word whose unsigned value is below 10000 the sign test fails, the word is kept, the
  clamp does nothing, and the row read is the row the word names. The rest is the same text as the specification:
  the three pieces laid end to end, a 320-term sum plus a bias, the maximum with zero, a 128-term sum plus a bias.
-/
import proofs.«419917_j49512382988573_1_alg».proof.Proof.Gen.ReferenceIdeal.Read
import proofs.«419917_j49512382988573_1_alg».proof.Proof.LibConcatRows
import Idealize.ShloMosaic.Lib.ValueLayout
import Idealize.ShloMosaic.Lib.StableHlo.Predicate

noncomputable section

open scoped BigOperators

namespace Cert.ReferenceIdeal.EdgeValue

open Cert.ReferenceIdeal Cert.ReferenceIdeal.Gen Cert.ReferenceIdeal.Read Idealize.ShloMosaic Idealize.ShloMosaic.ValueIdx EdgeMlp

/-! ## Words -/

/-- A word below 10000 is not negative, so jnp's wrap of negative indices keeps it. -/
theorem wrap_of_lt (w : BitVec 32) (h : w.toNat < 10000) :
    Scalar.select (IntOp.cmpi .slt w 0#32) (IntOp.addi w 10000#32) w = w := by
  have hi : w.toInt = w.toNat := StableHlo.Predicate.toInt_eq_toNat_of_lt (by omega)
  have hc : IntOp.cmpi .slt w 0#32 = 0#1 := by
    unfold IntOp.cmpi
    have : w.slt 0#32 = false := by
      simp only [BitVec.slt, decide_eq_false_iff_not, not_lt]
      have z : (0#32 : BitVec 32).toInt = 0 := by decide
      rw [z, hi]; omega
    rw [this]; rfl
  rw [hc, select_zero]

/-- … and the gather's clamp into the table keeps it too. -/
theorem clamp_of_lt (w : BitVec 32) (h : w.toNat < 10000) : min w.toInt.toNat 9999 = (node w).val := by
  have hi : w.toInt = w.toNat := StableHlo.Predicate.toInt_eq_toNat_of_lt (by omega)
  rw [node_val_of_lt h, hi, Int.toNat_natCast]
  omega

/-! ## The row gather read at an entry -/

/-- Entry (edge e, feature d) of the gathered rows: the table at the row the start index names, read signed and
    clamped into the table, and at feature `d`. -/
theorem gather_rows_apply (x : FVec Ideal S10000x128 .f32) (idx : IVec S640000x1 32) (e : Fin 640000) (d : Fin 128) :
    Host.gather gather_S10000x128_S640000x1_S640000x128_1_0_n_n_0_1_1128 x idx (ix2 e d)
      = x (ix2 (⟨min (idx (ix2 e (0 : Fin 1))).toInt.toNat 9999, by omega⟩ : Fin 10000) d) := by
  unfold Host.gather
  refine congrArg x (funext fun a => Fin.ext ?_)
  match a with
  | ⟨0, _⟩ =>
    show gather_S10000x128_S640000x1_S640000x128_1_0_n_n_0_1_1128.start (ix2 e d) idx 0 + gather_S10000x128_S640000x1_S640000x128_1_0_n_n_0_1_1128.batchCoord (ix2 e d) 0 + gather_S10000x128_S640000x1_S640000x128_1_0_n_n_0_1_1128.offCoord (ix2 e d) 0 = min (idx (ix2 e (0 : Fin 1))).toInt.toNat 9999
    rw [GatherDims.batchCoord_eq_zero _ _ _ (by decide), GatherDims.offCoord_eq_zero _ _ _ (by decide)]
    simp only [Nat.add_zero]
    unfold GatherDims.start
    rw [dif_pos (show (0 : Fin 2) ∈ gather_S10000x128_S640000x1_S640000x128_1_0_n_n_0_1_1128.startIndexMap by decide)]
    have hsi : gather_S10000x128_S640000x1_S640000x128_1_0_n_n_0_1_1128.siIdx (ix2 e d) ⟨List.idxOf (0 : Fin 2) gather_S10000x128_S640000x1_S640000x128_1_0_n_n_0_1_1128.startIndexMap, List.idxOf_lt_length_iff.2 (by decide)⟩ = ix2 e (0 : Fin 1) := by
      funext b; refine Fin.ext ?_
      match b with
      | ⟨0, _⟩ => rfl
      | ⟨1, _⟩ => rfl
    rw [hsi]
    rfl
  | ⟨1, _⟩ =>
    show gather_S10000x128_S640000x1_S640000x128_1_0_n_n_0_1_1128.start (ix2 e d) idx 1 + gather_S10000x128_S640000x1_S640000x128_1_0_n_n_0_1_1128.batchCoord (ix2 e d) 1 + gather_S10000x128_S640000x1_S640000x128_1_0_n_n_0_1_1128.offCoord (ix2 e d) 1 = d.val
    rw [GatherDims.batchCoord_eq_zero _ _ _ (by decide)]
    unfold GatherDims.start
    rw [dif_neg (show ¬ (1 : Fin 2) ∈ gather_S10000x128_S640000x1_S640000x128_1_0_n_n_0_1_1128.startIndexMap by decide)]
    simp only [Nat.add_zero, Nat.zero_add]
    unfold GatherDims.offCoord
    rw [dif_pos (show (1 : Fin 2) ∈ gather_S10000x128_S640000x1_S640000x128_1_0_n_n_0_1_1128.sKept by decide)]
    rfl

/-! ## The node words as the reference reads them -/

theorem src_word (x1 : IVec S2x640000 32) (e : Fin 640000) : val_main_v1 (F := Ideal) x1 (ix1 e) = x1 (ix2 (0 : Fin 2) e) := by
  rw [val_main_v1_apply, val_main_v0_apply]
  exact congrArg x1 (funext fun a => Fin.ext (by
    match a with
    | ⟨0, _⟩ => rfl
    | ⟨1, _⟩ => show e.val % 640000 = e.val; have := e.isLt; omega))

theorem tgt_word (x1 : IVec S2x640000 32) (e : Fin 640000) : val_main_v3 (F := Ideal) x1 (ix1 e) = x1 (ix2 (1 : Fin 2) e) := by
  rw [val_main_v3_apply, val_main_v2_apply]
  exact congrArg x1 (funext fun a => Fin.ext (by
    match a with
    | ⟨0, _⟩ => rfl
    | ⟨1, _⟩ => show e.val % 640000 = e.val; have := e.isLt; omega))

theorem src_index (x1 : IVec S2x640000 32) (e : Fin 640000) (h : (x1 (ix2 (0 : Fin 2) e)).toNat < 10000) :
    val_main_v9 (F := Ideal) x1 (ix2 e (0 : Fin 1)) = x1 (ix2 (0 : Fin 2) e) := by
  have hi : idx_main_v9 (ix2 e (0 : Fin 1)) = ix1 e := funext fun a => by match a with | ⟨0, _⟩ => rfl
  rw [val_main_v9_apply, hi, val_main_v8_apply, val_main_v5_apply, val_main_v7_apply, val_main_v4_apply, val_main_v6_apply,
    val_main_c_apply, val_main_c_0_apply, src_word]
  exact wrap_of_lt _ h

theorem tgt_index (x1 : IVec S2x640000 32) (e : Fin 640000) (h : (x1 (ix2 (1 : Fin 2) e)).toNat < 10000) :
    val_main_v16 (F := Ideal) x1 (ix2 e (0 : Fin 1)) = x1 (ix2 (1 : Fin 2) e) := by
  have hi : idx_main_v16 (ix2 e (0 : Fin 1)) = ix1 e := funext fun a => by match a with | ⟨0, _⟩ => rfl
  rw [val_main_v16_apply, hi, val_main_v15_apply, val_main_v12_apply, val_main_v14_apply, val_main_v11_apply, val_main_v13_apply,
    val_main_c_1_apply, val_main_c_2_apply, tgt_word]
  exact wrap_of_lt _ h

/-! ## The stages against the specification -/

variable (x0 : FVec Ideal S10000x128 .f32) (x1 : IVec S2x640000 32) (x2 : FVec Ideal S640000x64 .f32)
  (x3 : FVec Ideal S320x128 .f32) (x4 : FVec Ideal S128 .f32) (x5 : FVec Ideal S128x128 .f32) (x6 : FVec Ideal S128 .f32)
  (hidx : ∀ i, (x1 i).toNat < 10000)
include hidx

theorem src_rows (e : Fin 640000) (d : Fin 128) :
    val_main_v10 (F := Ideal) x0 x1 (ix2 e d) = x0 (ix2 (node (x1 (ix2 (0 : Fin 2) e))) d) := by
  unfold val_main_v10
  rw [gather_rows_apply]
  exact congrArg (fun n : Fin 10000 => x0 (ix2 n d)) (Fin.ext (by
    show min (val_main_v9 (F := Ideal) x1 (ix2 e (0 : Fin 1))).toInt.toNat 9999 = _
    rw [src_index x1 e (hidx _)]; exact clamp_of_lt _ (hidx _)))

theorem tgt_rows (e : Fin 640000) (d : Fin 128) :
    val_main_v17 (F := Ideal) x0 x1 (ix2 e d) = x0 (ix2 (node (x1 (ix2 (1 : Fin 2) e))) d) := by
  unfold val_main_v17
  rw [gather_rows_apply]
  exact congrArg (fun n : Fin 10000 => x0 (ix2 n d)) (Fin.ext (by
    show min (val_main_v16 (F := Ideal) x1 (ix2 e (0 : Fin 1))).toInt.toNat 9999 = _
    rw [tgt_index x1 e (hidx _)]; exact clamp_of_lt _ (hidx _)))

/-- The joined array's entry (edge e, position k) is the specification's input row. -/
theorem input_row (e : Fin 640000) (k : Fin 320) : val_main_v18 (F := Ideal) x0 x1 x2 (ix2 e k) = cat x0 x1 x2 e k := by
  unfold val_main_v18 cat
  rw [concat3_apply]
  congr 1 <;> funext d
  · exact src_rows x0 x1 hidx e d
  · exact tgt_rows x0 x1 hidx e d

/-- The first layer with its maximum: the specification's hidden row. -/
theorem hidden_eq (e : Fin 640000) (j : Fin 128) :
    val_main_v23 (F := Ideal) x0 x1 x2 x3 x4 (ix2 e j) = hid x0 x1 x2 x3 x4 e j := by
  rw [val_main_v23_apply, val_main_v22_apply, val_main_v19_apply, val_main_v21_apply, val_main_v20_apply,
    val_main_call0_v0_apply, val_main_call0_cst_apply]
  unfold hid
  show max ((∑ k : Fin 320, _) + _) _ = _
  congr 1
  · congr 1
    · refine Finset.sum_congr rfl fun k _ => ?_
      have hl : lidx_main_v19 (ix2 e j) k = ix2 e k := funext fun a => by match a with | ⟨0, _⟩ => rfl | ⟨1, _⟩ => rfl
      have hr : ridx_main_v19 (ix2 e j) k = ix2 k j := funext fun a => by match a with | ⟨0, _⟩ => rfl | ⟨1, _⟩ => rfl
      rw [hl, hr, input_row x0 x1 x2 hidx]
    · exact congrArg x4 (funext fun a => by match a with | ⟨0, _⟩ => rfl)
  · exact Ideal.ofBits_zero_f32

/-- THE REFERENCE'S RESULT is the edge network's function of its arguments. -/
theorem result_eq : val_main_v27 (F := Ideal) x0 x1 x2 x3 x4 x5 x6 = EdgeMlp.out x0 x1 x2 x3 x4 x5 x6 := by
  funext i
  obtain ⟨e, o, rfl⟩ : ∃ (e : Fin 640000) (o : Fin 128), i = ix2 e o := ⟨i 0, i 1, eq_ix2 i⟩
  rw [val_main_v27_apply, val_main_v24_apply, val_main_v26_apply, val_main_v25_apply]
  unfold EdgeMlp.out
  show (∑ k : Fin 128, _) + _ = _
  congr 1
  · refine Finset.sum_congr rfl fun k _ => ?_
    have hl : lidx_main_v24 (ix2 e o) k = ix2 e k := funext fun a => by match a with | ⟨0, _⟩ => rfl | ⟨1, _⟩ => rfl
    have hr : ridx_main_v24 (ix2 e o) k = ix2 k o := funext fun a => by match a with | ⟨0, _⟩ => rfl | ⟨1, _⟩ => rfl
    rw [hl, hr, hidden_eq x0 x1 x2 x3 x4 hidx]
  · exact congrArg x6 (funext fun a => by match a with | ⟨0, _⟩ => rfl)

end Cert.ReferenceIdeal.EdgeValue

end
-- ==== Proof.lean ====
/-
  An edge network over a graph: for every edge, the features of its two end nodes and the edge's own features are laid
  end to end (320 numbers), passed through a layer `max (· W1 + b1) 0` and a layer `· W2 + b2`.

  The kernel never indexes the node table: per block of 256 edges it builds the 0/1 matrix "node n is edge r's end
  node" over the table padded to 10112 rows and multiplies the table by it. Over the extended reals that product is a
  sum against the indicator of one row, hence the row itself, as long as the node word is the number of a row of the
  table: a word outside `[0, 10000)` selects no row (or a padding row) and gives zeros, where the reference wraps a
  negative word and clamps a large one into the table. So the two programs agree exactly on the edge-index arrays
  whose words are node numbers, which is what the precondition says beside the finiteness of the float inputs. With
  the gather settled the two texts are the same sums in the same order, and a change of float format is the identity:
  no law of arithmetic beyond `0 · a = 0`, `1 · a = a` is used, and finiteness is never opened.

  The pieces: the specification as one function of the arrays (EdgeSpec), the index range read out of the
  precondition (IndexRange), the kernel body at an entry of its block (KernelBody), the blocks assembled into the
  whole array (KernelArrays), the reference's stages against the specification (RefValue). The three frames are the
  generated ones; no rewrite was applied in idealizing the kernel, so nothing is owed for it.
-/
import proofs.«419917_j49512382988573_1_alg».proof.Defs
import proofs.«419917_j49512382988573_1_alg».proof.Proof.Gen.Kernel
import proofs.«419917_j49512382988573_1_alg».proof.Proof.Gen.Kernel.Skeleton
import proofs.«419917_j49512382988573_1_alg».proof.Proof.Gen.Kernel.Launch
import proofs.«419917_j49512382988573_1_alg».proof.Proof.Gen.Kernel.Points
import proofs.«419917_j49512382988573_1_alg».proof.Proof.Gen.Kernel.Frame
import proofs.«419917_j49512382988573_1_alg».proof.Proof.Gen.KernelIdeal
import proofs.«419917_j49512382988573_1_alg».proof.Proof.Gen.KernelIdeal.Skeleton
import proofs.«419917_j49512382988573_1_alg».proof.Proof.Gen.KernelIdeal.Launch
import proofs.«419917_j49512382988573_1_alg».proof.Proof.Gen.KernelIdeal.Points
import proofs.«419917_j49512382988573_1_alg».proof.Proof.Gen.KernelIdeal.Frame
import proofs.«419917_j49512382988573_1_alg».proof.Proof.Gen.ReferenceIdeal
import proofs.«419917_j49512382988573_1_alg».proof.Proof.Gen.Pre_finite_inputs
import proofs.«419917_j49512382988573_1_alg».proof.Proof.Gen.KernelIdeal.Value
import proofs.«419917_j49512382988573_1_alg».proof.Proof.Gen.ReferenceIdeal.Run
import proofs.«419917_j49512382988573_1_alg».proof.Proof.Gen.ReferenceIdeal.Read
import proofs.«419917_j49512382988573_1_alg».proof.Proof.IndexRange
import proofs.«419917_j49512382988573_1_alg».proof.Proof.KernelArrays
import proofs.«419917_j49512382988573_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every word of the edge-index array is a node number. -/
theorem node_words (m : (ℓ : Loc Cert.KernelIdeal.nD Cert.KernelIdeal.τ Cert.KernelIdeal.sig) → Buf (Elt Ideal) ℓ)
    (h : Cert.Pre_KernelIdeal m) (c : Dev Cert.KernelIdeal.nD) (i) :
    (m ((c : Thread Cert.KernelIdeal.nD Cert.KernelIdeal.τ).loc Cert.KernelIdeal.main_arg1) i).toNat < 10000 :=
  EdgeMlp.index_lt_of_pre _ _ _ _ _ _ _ (h c) i

/-- Both idealized programs end with the edge network's function of the (agreeing) arguments. -/
theorem algebraic : Cert.algebraic_KernelIdeal_ReferenceIdeal := by
  intro m ρ m' ρ' hpre hagree
  have hidx := fun c i => node_words m hpre c i
  refine ⟨_, Cert.KernelIdeal.EdgeValue.run m hidx ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v27_eq,
    Cert.ReferenceIdeal.EdgeValue.result_eq _ _ _ _ _ _ _ (fun i => by rw [a1]; exact hidx c i),
    a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
